-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64x40 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x40, .f32⟩
  | .hbm, ⟨59, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x40, .f32⟩
  | .local _ .vmem, ⟨14, _⟩ => ⟨S64x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S40_S1x40 : S40.ShapeCasts S1x40
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x40, .f32⟩
  | .hbm, ⟨72, _⟩ => ⟨S100000x40, .f32⟩
  | .hbm, ⟨73, _⟩ => ⟨S100000x40, .f32⟩
  | .hbm, ⟨74, _⟩ => ⟨S1x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Layers.lean ====
/-
  A two-layer mean-aggregating graph convolution, written over whole arrays at the extended reals.

  Layer 1 takes the aggregated features A [N, 128], the nodes' own features X [N, 128], two weight matrices
  [128, 64] and a bias row [1, 64], and gives max (A Wl + X Wr + bias, 0): entry (n, k) is
  max ((sum over j of A (n, j) Wl (j, k)) + (sum over j of X (n, j) Wr (j, k)) + bias (0, k), 0).

  Layer 2 takes aggregated hidden features A [N, 64], the hidden features H [N, 64], two weight matrices [64, 40]
  and a bias row [1, 40], forms the logits L = A Wl + H Wr + bias, and returns each row's log-softmax:
  with m n the largest entry of row n, entry (n, k) is (L (n, k) - m n) - log (sum over k' of exp (L (n, k') - m n)).
  The row maximum is taken from minus infinity, which is the neutral element of max.

  Both are spelt with the host's whole-array operations, so that a program made of those operations has these
  functions as its value without any reading at an index; a program that works row block by row block meets them
  block by block.

  The mean: a row's sum is divided by max (degree, 1). Since max (d, 1) is at least 1 it is never zero, so dividing by
  it is multiplying by its inverse, and multiplying by the quotient 1 / max (d, 1) is the same: x (1 / y) = x / y for
  every extended real x and every y other than zero, the infinities included (their inverse is zero on both sides).
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.Sage

open Idealize.ShloMosaic Idealize.ShloMosaic.ValueIdx

abbrev T_ : Shape := ⟨0, ![]⟩
abbrev TN : Shape := ⟨1, ![100000]⟩
abbrev TNx1 : Shape := ⟨2, ![100000, 1]⟩
abbrev TNx128 : Shape := ⟨2, ![100000, 128]⟩
abbrev TNx64 : Shape := ⟨2, ![100000, 64]⟩
abbrev TNx40 : Shape := ⟨2, ![100000, 40]⟩
abbrev T128x64 : Shape := ⟨2, ![128, 64]⟩
abbrev T64x40 : Shape := ⟨2, ![64, 40]⟩
abbrev T1x64 : Shape := ⟨2, ![1, 64]⟩
abbrev T1x40 : Shape := ⟨2, ![1, 40]⟩

/-! ## The shape facts the operations ask for -/

theorem bias64 : T1x64.BroadcastsInDim TNx64 (![0, 1] : Fin 2 → Fin TNx64.rank) := by decide
theorem bias40 : T1x40.BroadcastsInDim TNx40 (![0, 1] : Fin 2 → Fin TNx40.rank) := by decide
theorem splat64 : T_.BroadcastsInDim TNx64 (![] : Fin 0 → Fin TNx64.rank) := by decide
theorem splatN : T_.BroadcastsInDim TN (![] : Fin 0 → Fin TN.rank) := by decide
theorem colN : TN.BroadcastsInDim TNx1 (![0] : Fin 1 → Fin TNx1.rank) := by decide
theorem col40 : TNx1.BroadcastsInDim TNx40 (![0, 1] : Fin 2 → Fin TNx40.rank) := by decide
theorem rows40 : TNx40.ReducesTo [1] TN := by decide
theorem one_elt : 0 < T_.numel := by decide

/-! ## Layer 1 -/

/-- max (A Wl + X Wr + bias row, 0) over [N, 64]. -/
def layer1 (A X : FVec Ideal TNx128 .f32) (Wl Wr : FVec Ideal T128x64 .f32) (B : FVec Ideal T1x64 .f32) :
    FVec Ideal TNx64 .f32 :=
  maximumf
    (addf (addf (Host.dotGeneral (DotDims.plain 100000 128 64) none A Wl)
        (Host.dotGeneral (DotDims.plain 100000 128 64) none X Wr))
      (broadcastInDim TNx64 ![0, 1] bias64 B))
    (broadcastInDim TNx64 ![] splat64 (constant (F := Ideal) T_ .f32 0x00000000#32))

/-! ## Layer 2 -/

/-- The logits A Wl + H Wr + bias row over [N, 40]. -/
def logits (A H : FVec Ideal TNx64 .f32) (Wl Wr : FVec Ideal T64x40 .f32) (B : FVec Ideal T1x40 .f32) :
    FVec Ideal TNx40 .f32 :=
  addf (addf (Host.dotGeneral (DotDims.plain 100000 64 40) none A Wl)
      (Host.dotGeneral (DotDims.plain 100000 64 40) none H Wr))
    (broadcastInDim TNx40 ![0, 1] bias40 B)

/-- Each row's largest entry, taken from minus infinity. -/
def rowMax (L : FVec Ideal TNx40 .f32) : FVec Ideal TN .f32 :=
  maximumf (broadcastInDim TN ![] splatN (constant (F := Ideal) T_ .f32 0xFF800000#32))
    (Host.reduce FloatOps.maximumf L (constant (F := Ideal) T_ .f32 0xFF800000#32) rows40 one_elt)

/-- A row minus its largest entry. -/
def shifted (L : FVec Ideal TNx40 .f32) : FVec Ideal TNx40 .f32 :=
  subf L (broadcastInDim TNx40 ![0, 1] col40 (broadcastInDim TNx1 ![0] colN (rowMax L)))

/-- The log-softmax of each row. -/
def logSoftmax (L : FVec Ideal TNx40 .f32) : FVec Ideal TNx40 .f32 :=
  subf (shifted L)
    (broadcastInDim TNx40 ![0, 1] col40 (Host.log (broadcastInDim TNx1 ![0] colN
      (Host.reduceAdd (Host.exp (shifted L)) (constant (F := Ideal) T_ .f32 0x00000000#32) rows40 one_elt))))

/-- Layer 2: the log-softmax of the logits. -/
def layer2 (A H : FVec Ideal TNx64 .f32) (Wl Wr : FVec Ideal T64x40 .f32) (B : FVec Ideal T1x40 .f32) :
    FVec Ideal TNx40 .f32 :=
  logSoftmax (logits A H Wl Wr B)

/-! ## The mean's two spellings -/

/-- max (d, 1) is positive, so it is not zero. -/
theorem max_one_ne_zero (d : EReal) : max d (Ideal.ofBits .f32 0x3F800000#32) ≠ 0 := by
  rw [Ideal.ofBits_one_f32]
  exact (lt_of_lt_of_le zero_lt_one (le_max_right d 1)).ne'

/-- x (1 / y) = x / y off zero: both are x times the inverse of y. -/
theorem mul_one_div (x y : EReal) (hy : y ≠ 0) : x * Ideal.div (Ideal.ofBits .f32 0x3F800000#32) y = Ideal.div x y := by
  rw [Ideal.ofBits_one_f32, Ideal.div, if_neg hy, one_mul, Ideal.div, if_neg hy]

/-- The largest of minus infinity and y is y. -/
theorem max_neg_inf (y : EReal) : max (Ideal.ofBits .f32 0xFF800000#32) y = y := by
  have h : Ideal.ofBits .f32 0xFF800000#32 = (⊥ : EReal) := by simp [Ideal.ofBits, Ideal.ieee]
  rw [h]; exact max_eq_right bot_le

end Cert.Sage

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.Graph.lean ====
/-
  The graph side of the network, shared by the two programs, and the network as one function.

  An edge list E [2, 1600000] gives each edge a source (row 0) and a destination (row 1). A negative source index is
  taken from the end (100000 is added). The rows of a feature array are gathered at the sources and added up at the
  destinations: row n of the result is the sum of the features of the sources of the edges that end at n. The degree of n
  is the number of edges that end at n, as a sum of ones. The mean divides row n by max (degree n, 1).

  The mean is spelt in two ways: the row sums TIMES the quotient 1 / max (degree, 1), and the row sums DIVIDED BY
  max (degree, 1). They are the same array: at each entry x (1 / y) = x / y, since y = max (d, 1) is not zero.

  The network: hidden = layer 1 of (mean of the gathered input features, input features); result = layer 2 of (mean of the
  gathered hidden features, hidden features). The bias vectors enter as 1 x n rows, either reshaped or broadcast along
  axis 1, which is the same row.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«177842_j63239098466920_1_alg».proof.Proof.Layers
import proofs.«177842_j63239098466920_1_alg».proof.Proof.LibLayout

noncomputable section

open scoped BigOperators

namespace Cert.Sage

open Idealize.ShloMosaic Idealize.ShloMosaic.ValueIdx

abbrev T2xE : Shape := ⟨2, ![2, 1600000]⟩
abbrev T1xE : Shape := ⟨2, ![1, 1600000]⟩
abbrev TE : Shape := ⟨1, ![1600000]⟩
abbrev TEx1 : Shape := ⟨2, ![1600000, 1]⟩
abbrev TEx128 : Shape := ⟨2, ![1600000, 128]⟩
abbrev TEx64 : Shape := ⟨2, ![1600000, 64]⟩
abbrev T64 : Shape := ⟨1, ![64]⟩
abbrev T40 : Shape := ⟨1, ![40]⟩

/-! ## Shape facts -/

theorem slice0 : T2xE.Slices ![0, 0] T1xE := by decide
theorem slice1 : T2xE.Slices ![1, 0] T1xE := by decide
theorem flatE : T1xE.ShapeCasts TE := by decide
theorem splatE : T_.BroadcastsInDim TE (![] : Fin 0 → Fin TE.rank) := by decide
theorem colE : TE.BroadcastsInDim TEx1 (![0] : Fin 1 → Fin TEx1.rank) := by decide
theorem splat128 : T_.BroadcastsInDim TNx128 (![] : Fin 0 → Fin TNx128.rank) := by decide
theorem col128 : TNx1.BroadcastsInDim TNx128 (![0, 1] : Fin 2 → Fin TNx128.rank) := by decide
theorem col64 : TNx1.BroadcastsInDim TNx64 (![0, 1] : Fin 2 → Fin TNx64.rank) := by decide
theorem row64 : T64.ShapeCasts T1x64 := by decide
theorem row40 : T40.ShapeCasts T1x40 := by decide
theorem brow64 : T64.BroadcastsInDim T1x64 (![1] : Fin 1 → Fin T1x64.rank) := by decide
theorem brow40 : T40.BroadcastsInDim T1x40 (![1] : Fin 1 → Fin T1x40.rank) := by decide

/-! ## The dimension records of the gathers and the accumulating scatters -/

def scN : ScatterDims TN TEx1 TE where
  updateWindowDims := []
  insertedWindowDims := [0]
  scatterDimsToOperandDims := [0]
  indexVectorDim := 1
  wf := by decide
def g128 : GatherDims TNx128 TEx1 TEx128 where
  offsetDims := [1]
  collapsedSliceDims := [0]
  operandBatchingDims := []
  startIndicesBatchingDims := []
  startIndexMap := [0]
  indexVectorDim := 1
  sliceSizes := ![1, 128]
  wf := by decide
def sc128 : ScatterDims TNx128 TEx1 TEx128 where
  updateWindowDims := [1]
  insertedWindowDims := [0]
  scatterDimsToOperandDims := [0]
  indexVectorDim := 1
  wf := by decide
def g64 : GatherDims TNx64 TEx1 TEx64 where
  offsetDims := [1]
  collapsedSliceDims := [0]
  operandBatchingDims := []
  startIndicesBatchingDims := []
  startIndexMap := [0]
  indexVectorDim := 1
  sliceSizes := ![1, 64]
  wf := by decide
def sc64 : ScatterDims TNx64 TEx1 TEx64 where
  updateWindowDims := [1]
  insertedWindowDims := [0]
  scatterDimsToOperandDims := [0]
  indexVectorDim := 1
  wf := by decide

/-! ## Sources, destinations, degrees, row sums -/

/-- The edges' sources: row 0 of the edge list. -/
def src (E : IVec T2xE 32) : IVec TE 32 := shapeCast TE (extractStridedSlice T1xE ![0, 0] E slice0) flatE
/-- The edges' destinations: row 1 of the edge list. -/
def dst (E : IVec T2xE 32) : IVec TE 32 := shapeCast TE (extractStridedSlice T1xE ![1, 0] E slice1) flatE
/-- The sources with a negative index taken from the end. -/
def srcW (E : IVec T2xE 32) : IVec TE 32 :=
  select (cmpi .slt (src E) (broadcastInDim TE ![] splatE (constantI T_ 32 0#32)))
    (addi (src E) (broadcastInDim TE ![] splatE (constantI T_ 32 100000#32))) (src E)

/-- The number of edges ending at each node, as a sum of ones. -/
def deg (E : IVec T2xE 32) : FVec Ideal TN .f32 :=
  Host.scatterAdd scN (broadcastInDim TN ![] splatN (constant (F := Ideal) T_ .f32 0x00000000#32))
    (broadcastInDim TEx1 ![0] colE (dst E)) (broadcastInDim TE ![] splatE (constant (F := Ideal) T_ .f32 0x3F800000#32))
/-- max (degree, 1). -/
def degClamped (E : IVec T2xE 32) : FVec Ideal TN .f32 :=
  maximumf (deg E) (broadcastInDim TN ![] splatN (constant (F := Ideal) T_ .f32 0x3F800000#32))

/-- Row n: the sum of the rows of X at the sources of the edges ending at n (width 128). -/
def rowSum128 (E : IVec T2xE 32) (X : FVec Ideal TNx128 .f32) : FVec Ideal TNx128 .f32 :=
  Host.scatterAdd sc128 (broadcastInDim TNx128 ![] splat128 (constant (F := Ideal) T_ .f32 0x00000000#32))
    (broadcastInDim TEx1 ![0] colE (dst E)) (Host.gather g128 X (broadcastInDim TEx1 ![0] colE (srcW E)))
/-- The same at width 64. -/
def rowSum64 (E : IVec T2xE 32) (H : FVec Ideal TNx64 .f32) : FVec Ideal TNx64 .f32 :=
  Host.scatterAdd sc64 (broadcastInDim TNx64 ![] splat64 (constant (F := Ideal) T_ .f32 0x00000000#32))
    (broadcastInDim TEx1 ![0] colE (dst E)) (Host.gather g64 H (broadcastInDim TEx1 ![0] colE (srcW E)))

/-! ## The mean, in its two spellings -/

/-- Rows times the column 1 / max (d, 1). -/
def meanMul {K : Nat} (hb : TNx1.BroadcastsInDim ⟨2, ![100000, K]⟩ (![0, 1] : Fin 2 → Fin 2)) (d : FVec Ideal TN .f32)
    (S : FVec Ideal ⟨2, ![100000, K]⟩ .f32) : FVec Ideal ⟨2, ![100000, K]⟩ .f32 :=
  mulf S (broadcastInDim ⟨2, ![100000, K]⟩ ![0, 1] hb (broadcastInDim TNx1 ![0] colN
    (Host.divf (broadcastInDim TN ![] splatN (constant (F := Ideal) T_ .f32 0x3F800000#32))
      (maximumf d (broadcastInDim TN ![] splatN (constant (F := Ideal) T_ .f32 0x3F800000#32))))))

/-- Rows divided by the column max (d, 1). -/
def meanDiv {K : Nat} (hb : TNx1.BroadcastsInDim ⟨2, ![100000, K]⟩ (![0, 1] : Fin 2 → Fin 2)) (d : FVec Ideal TN .f32)
    (S : FVec Ideal ⟨2, ![100000, K]⟩ .f32) : FVec Ideal ⟨2, ![100000, K]⟩ .f32 :=
  Host.divf S (broadcastInDim ⟨2, ![100000, K]⟩ ![0, 1] hb (broadcastInDim TNx1 ![0] colN
    (maximumf d (broadcastInDim TN ![] splatN (constant (F := Ideal) T_ .f32 0x3F800000#32)))))

/-- A vector broadcast to a column and then along the rows reads, at (p, q), its entry p. -/
theorem col_bcast_apply {K : Nat} (hb : TNx1.BroadcastsInDim ⟨2, ![100000, K]⟩ (![0, 1] : Fin 2 → Fin 2)) (v : FVec Ideal TN .f32)
    (p : Fin 100000) (q : Fin K) :
    broadcastInDim ⟨2, ![100000, K]⟩ ![0, 1] hb (broadcastInDim TNx1 ![0] colN v) (ix2 p q) = v (ix1 p) := by
  rw [broadcastInDim_apply ![0, 1] hb _ (ix2 p q) (ix2 p (0 : Fin 1)) (fun a => by
      match a with
      | ⟨0, _⟩ => rfl
      | ⟨1, _⟩ => rfl),
    broadcastInDim_apply ![0] colN v (ix2 p (0 : Fin 1)) (ix1 p) (fun a => by
      match a with
      | ⟨0, _⟩ => rfl)]

/-- The two spellings of the mean are one array. -/
theorem meanMul_eq_meanDiv {K : Nat} (hb : TNx1.BroadcastsInDim ⟨2, ![100000, K]⟩ (![0, 1] : Fin 2 → Fin 2)) (d : FVec Ideal TN .f32)
    (S : FVec Ideal ⟨2, ![100000, K]⟩ .f32) : meanMul hb d S = meanDiv hb d S := by
  funext i
  obtain ⟨p, q, rfl⟩ : ∃ (p : Fin 100000) (q : Fin K), i = ix2 p q := ⟨i 0, i 1, eq_ix2 i⟩
  unfold meanMul meanDiv
  rw [mulf_apply, col_bcast_apply]
  show S (ix2 p q) * Ideal.div _ _ = Ideal.div (S (ix2 p q)) _
  rw [col_bcast_apply]
  have h1 : broadcastInDim TN ![] splatN (constant (F := Ideal) T_ .f32 0x3F800000#32) (ix1 p) = Ideal.ofBits .f32 0x3F800000#32 :=
    broadcastInDim_apply ![] splatN _ (ix1 p) ix0 (fun a => a.elim0)
  rw [h1, maximumf_apply, h1]
  exact mul_one_div _ _ (max_one_ne_zero _)

/-! ## The network -/

/-- The network over two aggregation maps. -/
def net (agg1 : FVec Ideal TNx128 .f32 → FVec Ideal TNx128 .f32) (agg2 : FVec Ideal TNx64 .f32 → FVec Ideal TNx64 .f32)
    (x : FVec Ideal TNx128 .f32) (W1l W1r : FVec Ideal T128x64 .f32) (B1 : FVec Ideal T1x64 .f32)
    (W2l W2r : FVec Ideal T64x40 .f32) (B2 : FVec Ideal T1x40 .f32) : FVec Ideal TNx40 .f32 :=
  layer2 (agg2 (layer1 (agg1 x) x W1l W1r B1)) (layer1 (agg1 x) x W1l W1r B1) W2l W2r B2

/-- The network with the mean as a product and the bias rows reshaped. -/
def kernelNet (E : IVec T2xE 32) (x : FVec Ideal TNx128 .f32) (W1l W1r : FVec Ideal T128x64 .f32) (b1 : FVec Ideal T64 .f32)
    (W2l W2r : FVec Ideal T64x40 .f32) (b2 : FVec Ideal T40 .f32) : FVec Ideal TNx40 .f32 :=
  net (fun X => meanMul col128 (deg E) (rowSum128 E X)) (fun H => meanMul col64 (deg E) (rowSum64 E H))
    x W1l W1r (shapeCast T1x64 b1 row64) W2l W2r (shapeCast T1x40 b2 row40)

/-- The network with the mean as a quotient and the bias rows broadcast. -/
def refNet (E : IVec T2xE 32) (x : FVec Ideal TNx128 .f32) (W1l W1r : FVec Ideal T128x64 .f32) (b1 : FVec Ideal T64 .f32)
    (W2l W2r : FVec Ideal T64x40 .f32) (b2 : FVec Ideal T40 .f32) : FVec Ideal TNx40 .f32 :=
  net (fun X => meanDiv col128 (deg E) (rowSum128 E X)) (fun H => meanDiv col64 (deg E) (rowSum64 E H))
    x W1l W1r (broadcastInDim T1x64 ![1] brow64 b1) W2l W2r (broadcastInDim T1x40 ![1] brow40 b2)

/-- The two spellings give one network. -/
theorem kernelNet_eq_refNet (E : IVec T2xE 32) (x : FVec Ideal TNx128 .f32) (W1l W1r : FVec Ideal T128x64 .f32)
    (b1 : FVec Ideal T64 .f32) (W2l W2r : FVec Ideal T64x40 .f32) (b2 : FVec Ideal T40 .f32) :
    kernelNet E x W1l W1r b1 W2l W2r b2 = refNet E x W1l W1r b1 W2l W2r b2 := by
  unfold kernelNet refNet
  rw [Cert.Proof.Layout.reshape_row_eq_broadcastInDim b1 row64 brow64,
    Cert.Proof.Layout.reshape_row_eq_broadcastInDim b2 row40 brow40]
  have e1 : (fun X => meanMul col128 (deg E) (rowSum128 E X)) = fun X => meanDiv col128 (deg E) (rowSum128 E X) :=
    funext fun X => meanMul_eq_meanDiv col128 _ _
  have e2 : (fun H => meanMul col64 (deg E) (rowSum64 E H)) = fun H => meanDiv col64 (deg E) (rowSum64 E H) :=
    funext fun H => meanMul_eq_meanDiv col64 _ _
  rw [e1, e2]

end Cert.Sage

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.Region0.lean ====
import proofs.«177842_j63239098466920_1_alg».proof.Proof.Gen.KernelIdeal.Frame
import proofs.«177842_j63239098466920_1_alg».proof.Proof.Layers
import proofs.«177842_j63239098466920_1_alg».proof.Proof.LibBlocks
import proofs.«177842_j63239098466920_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One element of the block's result

A block holds 5000 consecutive rows of the two [100000, 128] arrays; the two weight matrices and the bias row
are whole. Element (p, q) of the block's result is max(sum_k x0 (p, k) x2 (k, q) + sum_k x1 (p, k) x3 (k, q)
+ x4 (0, q), 0), and element (r, q) of layer 1 is the same expression of the arrays' row r: the two agree when
block row p is array row r. -/

/-- A block of rows times a weight matrix, accumulated from zero, at (p, q), is the whole array's product at
    (r, q) when block row p is array row r. -/
theorem matmul_rows_apply (x : FVec Ideal S5000x128 .f32) (w : FVec Ideal S128x64 .f32)
    (a : FVec Ideal Cert.Sage.TNx128 .f32) (p : Fin 5000) (r : Fin 100000) (q : Fin 64)
    (h : ∀ k : Fin 128, x (ix2 p k) = a (ix2 r k)) :
    matmul dot_S5000x128_S128x64_S5000x64_1_0_0_1_n_n none (truncf .bf16 x bitsLt_bf16_f32)
        (truncf .bf16 w bitsLt_bf16_f32) (constant (F := Ideal) S5000x64 .f32 0x00000000#32) (ix2 p q)
      = Host.dotGeneral (F := Ideal) (DotDims.plain 100000 128 64) none a w (ix2 r q) := by
  show FloatOps.matmul dot_S5000x128_S128x64_S5000x64_1_0_0_1_n_n none _ _ _ _
    = FloatOps.dotGeneral (DotDims.plain 100000 128 64) none .single a w (ix2 r q)
  rw [Cert.LibBlocks.matmul_plain_apply dot_S5000x128_S128x64_S5000x64_1_0_0_1_n_n rfl,
    Cert.LibBlocks.dotGeneral_plain_apply (DotDims.plain 100000 128 64) rfl]
  refine Finset.sum_congr rfl fun k _ => ?_
  rw [truncf_apply, truncf_apply, h k]

/-- The bias row broadcast down a block's rows, at (p, q), is the row's entry q. -/
theorem bias_block_apply (x : FVec Ideal S1x64 .f32) (p : Fin 5000) (q : Fin 64) :
    broadcastTo S5000x64 (shapeCast S1x64 x shapeCasts_S1x64_S1x64) broadcasts_S1x64_S5000x64 (ix2 p q)
      = x (ix2 (0 : Fin 1) q) := by
  rw [shapeCast_self]
  refine broadcastTo_apply x broadcasts_S1x64_S5000x64 (ix2 p q) (ix2 (0 : Fin 1) q) fun a => ?_
  match a with
  | ⟨0, _⟩ => rfl
  | ⟨1, _⟩ =>
    exact (if_neg (show ¬ ((64 : ℕ) = 1) by decide)).symm

/-- The bias row broadcast down the whole array's rows, at (r, q), is the row's entry q. -/
theorem bias_array_apply (B : FVec Ideal Cert.Sage.T1x64 .f32) (r : Fin 100000) (q : Fin 64) :
    broadcastInDim Cert.Sage.TNx64 ![0, 1] Cert.Sage.bias64 B (ix2 r q) = B (ix2 (0 : Fin 1) q) := by
  refine broadcastInDim_apply ![0, 1] Cert.Sage.bias64 B (ix2 r q) (ix2 (0 : Fin 1) q) fun a => ?_
  match a with
  | ⟨0, _⟩ => rfl
  | ⟨1, _⟩ =>
    exact (if_neg (show ¬ ((64 : ℕ) = 1) by decide)).symm

/-- The body's result at (p, q) is layer 1 at (r, q) when block row p of each row-blocked operand is row r of
    its array and the whole operands are the arrays themselves. -/
theorem payload_apply
    (x0 x1 : FVec Ideal S5000x128 .f32) (x2 x3 : FVec Ideal S128x64 .f32) (x4 : FVec Ideal S1x64 .f32)
    (A X : FVec Ideal Cert.Sage.TNx128 .f32) (Wl Wr : FVec Ideal Cert.Sage.T128x64 .f32)
    (B : FVec Ideal Cert.Sage.T1x64 .f32) (p : Fin 5000) (r : Fin 100000) (q : Fin 64)
    (h0 : ∀ k : Fin 128, x0 (ix2 p k) = A (ix2 r k)) (h1 : ∀ k : Fin 128, x1 (ix2 p k) = X (ix2 r k))
    (h2 : x2 = Wl) (h3 : x3 = Wr) (h4 : x4 = B) :
    (k0_pay1 (F := Ideal)) x0 x1 x2 x3 x4 (ix2 p q) = Cert.Sage.layer1 A X Wl Wr B (ix2 r q) := by
  subst h2 h3 h4
  unfold k0_pay1 Cert.Sage.layer1
  show maximumf (addf (addf
        (matmul dot_S5000x128_S128x64_S5000x64_1_0_0_1_n_n none
          (truncf .bf16 (shapeCast S5000x128 x0 shapeCasts_S5000x128_S5000x128) bitsLt_bf16_f32)
          (truncf .bf16 x2 bitsLt_bf16_f32) (constant (F := Ideal) S5000x64 .f32 0x00000000#32))
        (matmul dot_S5000x128_S128x64_S5000x64_1_0_0_1_n_n none (truncf .bf16 x1 bitsLt_bf16_f32)
          (truncf .bf16 x3 bitsLt_bf16_f32) (constant (F := Ideal) S5000x64 .f32 0x00000000#32)))
      (broadcastTo S5000x64 (shapeCast S1x64 x4 shapeCasts_S1x64_S1x64) broadcasts_S1x64_S5000x64))
      (broadcast S5000x64 (Scalar.ofBits (F := Ideal) .f32 0x00000000#32)) (ix2 p q) = _
  rw [maximumf_apply, maximumf_apply, addf_apply, addf_apply, addf_apply, addf_apply, shapeCast_self,
    matmul_rows_apply x0 x2 A p r q h0, matmul_rows_apply x1 x3 X p r q h1, bias_block_apply,
    bias_array_apply,
    broadcastInDim_apply ![] Cert.Sage.splat64 (constant (F := Ideal) Cert.Sage.T_ .f32 0x00000000#32)
      (ix2 r q) ix0 (fun a => a.elim0)]
  rfl

/-! ## Where each window's block sits -/

/-- The zero offsets of a two-axis block, as the constant function. -/
theorem hz : (![0, 0] : Fin 2 → Nat) = fun _ => 0 := Cert.LibBlocks.off2_zero

/-- The printed index maps over the grid: the two row-blocked inputs and the output are at block t on the row
    axis and block 0 on the column axis; the weights and the bias are at block 0 on both. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks the body reads

Window w's block at point t, read at y, is its array at the block's element y, whose coordinate on each axis
is block index times block size plus y's coordinate. The row-blocked windows sit at block t of the rows, so
block row p is array row 5000 t + p; the weights and the bias sit at block 0 of both axes and are whole. -/

/-- Row p of window 0's block at point t is row 5000 t + p of the first operand. -/
theorem read_rows0 (c : Dev nD) (t : Fin cfg0.N) (p : Fin 5000) (r : Fin 100000)
    (hr : r.val = t.val * 5000 + p.val) (k : Fin 128) :
    iblk0 V c 0 t (ix2 p k) = V c main_v24 (ix2 r k) := by
  obtain ⟨e00, e01, -⟩ := idx_facts t
  have e : ((cfg0.win 0).blk t).view.emb (ix2 p k) = (ix2 r k : S100000x128.Idx) := by
    funext a; apply Fin.ext
    match a with
    | ⟨0, _⟩ => show win0_0.index t (0 : Fin 2) * 5000 + 1 * p.val = r.val; omega
    | ⟨1, _⟩ => show win0_0.index t (1 : Fin 2) * 128 + 1 * k.val = k.val; omega
  show V c main_v24 (((cfg0.win 0).blk t).view.emb (ix2 p k)) = V c main_v24 (ix2 r k)
  rw [e]

/-- Row p of window 1's block at point t is row 5000 t + p of the second operand. -/
theorem read_rows1 (c : Dev nD) (t : Fin cfg0.N) (p : Fin 5000) (r : Fin 100000)
    (hr : r.val = t.val * 5000 + p.val) (k : Fin 128) :
    iblk0 V c 1 t (ix2 p k) = V c main_arg0 (ix2 r k) := by
  obtain ⟨-, -, e10, e11, -⟩ := idx_facts t
  have e : ((cfg0.win 1).blk t).view.emb (ix2 p k) = (ix2 r k : S100000x128.Idx) := by
    funext a; apply Fin.ext
    match a with
    | ⟨0, _⟩ => show win0_1.index t (0 : Fin 2) * 5000 + 1 * p.val = r.val; omega
    | ⟨1, _⟩ => show win0_1.index t (1 : Fin 2) * 128 + 1 * k.val = k.val; omega
  show V c main_arg0 (((cfg0.win 1).blk t).view.emb (ix2 p k)) = V c main_arg0 (ix2 r k)
  rw [e]

/-- Window 2's block is the whole left weight matrix at every point. -/
theorem read_whole2 (c : Dev nD) (t : Fin cfg0.N) : iblk0 V c 2 t = V c main_arg2 := by
  obtain ⟨-, -, -, -, e20, e21, -⟩ := idx_facts t
  funext y
  have e : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 64 + 1 * (y 1).val = (y 1).val; omega
  show V c main_arg2 (((cfg0.win 2).blk t).view.emb y) = V c main_arg2 y
  rw [e]

/-- Window 3's block is the whole right weight matrix at every point. -/
theorem read_whole3 (c : Dev nD) (t : Fin cfg0.N) : iblk0 V c 3 t = V c main_arg3 := by
  obtain ⟨-, -, -, -, -, -, e30, e31, -⟩ := idx_facts t
  funext y
  have e : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 64 + 1 * (y 1).val = (y 1).val; omega
  show V c main_arg3 (((cfg0.win 3).blk t).view.emb y) = V c main_arg3 y
  rw [e]

/-- Window 4's block is the whole bias row at every point. -/
theorem read_whole4 (c : Dev nD) (t : Fin cfg0.N) : iblk0 V c 4 t = V c main_v25 := by
  obtain ⟨-, -, -, -, -, -, -, -, e40, e41, -⟩ := idx_facts t
  funext y
  have e : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega
  show V c main_v25 (((cfg0.win 4).blk t).view.emb y) = V c main_v25 y
  rw [e]

/-! ## What a point writes back -/

/-- Point t writes back block t of layer 1 of the arrays the region finds. -/
theorem flushed_eq (c : Dev nD) (t : Fin cfg0.N) :
    (dat0 (F := Ideal) V c).flushed 5 t
      = ((cfg0.win 5).blk t).view.read (Elt Ideal)
          (Cert.Sage.layer1 (V c main_v24) (V c main_arg0) (V c main_arg2) (V c main_arg3) (V c main_v25)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz,
    View.ld_unit_zero (S := S1x64) hz]
  obtain ⟨-, -, -, -, -, -, -, -, -, -, e50, e51⟩ := idx_facts t
  have hN : grid0.N = 20 := N_0
  have ht : t.val < grid0.N := t.isLt
  funext j
  obtain ⟨p, q, rfl⟩ : ∃ (p : Fin 5000) (q : Fin 64), j = ix2 p q := ⟨j 0, j 1, eq_ix2 j⟩
  have hp : p.val < 5000 := p.isLt
  obtain ⟨r, hr⟩ : ∃ r : Fin 100000, r.val = t.val * 5000 + p.val := ⟨⟨t.val * 5000 + p.val, by omega⟩, rfl⟩
  have e : ((cfg0.win 5).blk t).view.emb (ix2 p q) = (ix2 r q : S100000x64.Idx) := by
    funext a; apply Fin.ext
    match a with
    | ⟨0, _⟩ => show win0_5.index t (0 : Fin 2) * 5000 + 1 * p.val = r.val; omega
    | ⟨1, _⟩ => show win0_5.index t (1 : Fin 2) * 64 + 1 * q.val = q.val; omega
  show (k0_pay1 (F := Ideal)) (iblk0 V c 0 t) (iblk0 V c 1 t) (iblk0 V c 2 t) (iblk0 V c 3 t) (iblk0 V c 4 t) (ix2 p q)
    = Cert.Sage.layer1 (V c main_v24) (V c main_arg0) (V c main_arg2) (V c main_arg3) (V c main_v25)
        (((cfg0.win 5).blk t).view.emb (ix2 p q))
  rw [e]
  exact payload_apply (iblk0 V c 0 t) (iblk0 V c 1 t) (iblk0 V c 2 t) (iblk0 V c 3 t) (iblk0 V c 4 t)
    (V c main_v24) (V c main_arg0) (V c main_arg2) (V c main_arg3) (V c main_v25) p r q
    (read_rows0 V c t p r hr) (read_rows1 V c t p r hr) (read_whole2 V c t) (read_whole3 V c t) (read_whole4 V c t)

/-! ## The blocks tile the array -/

/-- An element of the output array is in point t's block when each coordinate is in the block's range. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Every element of the output array is in the block of a point that writes back: row r is in block r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  obtain ⟨hb, hlo, hhi⟩ := Cert.LibBlocks.row_in_block (nb := 20) (bs := 5000) (r := (i 0).val) (by omega) (by omega)
  obtain ⟨t, htv⟩ : ∃ t : Fin cfg0.N, t.val = (i 0).val / 5000 :=
    ⟨⟨(i 0).val / 5000, by show (i 0).val / 5000 < grid0.N; omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- Region 0's output array after the run is layer 1 of the arrays the region finds. -/
theorem value (c : Dev nD) :
    (dat0 (F := Ideal) V c).arrAt 5 cfg0.N
      = Cert.Sage.layer1 (V c main_v24) (V c main_arg0) (V c main_arg2) (V c main_arg3) (V c main_v25) := by
  exact (dat0 (F := Ideal) V c).arrAt_eq_of_cover 5 _ (fun t _ => flushed_eq V c t) cover

end Cert.KernelIdeal.Region0

end
-- ==== Proof.Region1.lean ====
import proofs.«177842_j63239098466920_1_alg».proof.Proof.Gen.KernelIdeal.Frame
import proofs.«177842_j63239098466920_1_alg».proof.Proof.Layers
import proofs.«177842_j63239098466920_1_alg».proof.Proof.LibBlocks
import proofs.«177842_j63239098466920_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One row of a two-axis array: its largest entry and its sum

A row p of an array [a, b] is the b entries (p, 0) … (p, b - 1). Reducing the second axis reads, at p, exactly those
entries: the index over p with coordinate k inserted on the reduced axis is (p, k). -/

section Rows

variable {a b : ℕ}

/-- The index over row p with coordinate k on the reduced second axis is (p, k). -/
theorem lift_row (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  unfold Shape.Reduces.liftVal
  match c with
  | ⟨0, _⟩ => rfl
  | ⟨1, _⟩ => rfl

/-- The largest entry of row p as the vector unit takes it: the fold of max from the accumulator over the row. -/
theorem rowMaxK_apply (L : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ L acc h hφ hacc (ix1 p)
      = (Finset.univ : Finset (Fin b)).fold max (Ideal.ofBits .f32 acc) (fun k => L (ix2 p k)) :=
  (Ideal.multiReduction_maximumf_single L acc h hφ hacc (ix1 p)).trans
    (congrArg (fun f => (Finset.univ : Finset (Fin b)).fold max (Ideal.ofBits .f32 acc) f)
      (funext fun k => congrArg L (lift_row h p k)))

/-- The largest entry of row r as the host takes it: the same fold, from the initial value's one element. -/
theorem rowMaxH_apply (L : FVec Ideal ⟨2, ![a, b]⟩ .f32) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) L init h' hu (ix1 r)
      = (Finset.univ : Finset (Fin b)).fold max (init ix0) (fun k => L (ix2 r k)) :=
  (Host.reduce_eq_fold_single (FloatOps.maximumf (F := Ideal) (φ := .f32)) L init h' h hu (ix1 r)).trans
    (by
      rw [eq_ix0 (Shape.Idx.first hu)]
      exact congrArg (fun f => (Finset.univ : Finset (Fin b)).fold max (init ix0) f)
        (funext fun k => congrArg L (lift_row h r k)))

/-- The sum of row p as the vector unit takes it. -/
theorem rowSumK_apply (E : FVec Ideal ⟨2, ![a, b]⟩ .f32) (acc : BitVec FTy.f32.bits)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ E acc h hφ hacc (ix1 p) = ∑ k : Fin b, E (ix2 p k) :=
  (Ideal.multiReduction_add_single E acc h hφ hacc (ix1 p)).trans
    (Finset.sum_congr rfl fun k _ => congrArg E (lift_row h p k))

/-- The sum of row r as the host takes it, from a zero initial value. -/
theorem rowSumH_apply (E : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) E (constant (F := Ideal) ⟨0, ![]⟩ .f32 0x00000000#32) h' hu (ix1 r)
      = ∑ k : Fin b, E (ix2 r k) := by
  simp only [Host.reduceAdd, Ideal.hostReduceAdd_def]
  refine (Ideal.hostReduceAdd_single h' h E _ (ix1 r)).trans ?_
  rw [constant_apply, Ideal.ofBits_zero_f32, zero_add]
  exact Finset.sum_congr rfl fun k _ => congrArg E (lift_row h r k)

end Rows

/-! ## A column of row values set beside the array again

A vector v of a entries made an a x 1 column and then broadcast to a x b: entry (r, q) of the result is v r. The host
spells the two steps as broadcasts along named axes, the vector unit as a reshape and a broadcast. -/

section Columns

variable {a b : ℕ}

/-- The host's [a] → [a, 1] reads, at (r, 0), entry r. -/
theorem hostCol_apply (v : (⟨1, ![a]⟩ : Shape).Idx → EReal)
    (h1 : (⟨1, ![a]⟩ : Shape).BroadcastsInDim ⟨2, ![a, 1]⟩ ![0]) (r : Fin a) :
    broadcastInDim ⟨2, ![a, 1]⟩ ![0] h1 v (ix2 r (0 : Fin 1)) = v (ix1 r) := by
  refine broadcastInDim_apply ![0] h1 v (ix2 r (0 : Fin 1)) (ix1 r) fun ax => ?_
  match ax with
  | ⟨0, _⟩ =>
    show r.val = if a = 1 then 0 else r.val
    split
    · have := r.isLt; omega
    · rfl

/-- The host's [a, 1] → [a, b] reads, at (r, q), row r's one entry. -/
theorem hostColRow_apply (w : (⟨2, ![a, 1]⟩ : Shape).Idx → EReal)
    (h2 : (⟨2, ![a, 1]⟩ : Shape).BroadcastsInDim ⟨2, ![a, b]⟩ ![0, 1]) (r : Fin a) (q : Fin b) :
    broadcastInDim ⟨2, ![a, b]⟩ ![0, 1] h2 w (ix2 r q) = w (ix2 r (0 : Fin 1)) := by
  refine broadcastInDim_apply ![0, 1] h2 w (ix2 r q) (ix2 r (0 : Fin 1)) fun ax => ?_
  match ax with
  | ⟨0, _⟩ =>
    show r.val = if a = 1 then 0 else r.val
    split
    · have := r.isLt; omega
    · rfl
  | ⟨1, _⟩ => rfl

/-- The two together: at (r, q), row r's value. -/
theorem hostColumn_apply (v : (⟨1, ![a]⟩ : Shape).Idx → EReal)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (q : Fin b) :
    broadcastInDim ⟨2, ![a, b]⟩ ![0, 1] h2 (broadcastInDim ⟨2, ![a, 1]⟩ ![0] h1 v) (ix2 r q) = v (ix1 r) :=
  (hostColRow_apply _ h2 r q).trans (hostCol_apply v h1 r)

/-- The vector unit's [a] → [a, 1] → [a, b] of a vector of row values reads, at (p, q), row p's value. -/
theorem unitColumn_apply (v : (⟨1, ![a]⟩ : Shape).Idx → EReal)
    (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (Cert.Proof.Column.broadcastTo_a1_ab_apply _ h2 p q).trans (Cert.Proof.Column.shapeCast_a_a1_apply v h1 p 0)

/-- The host's column of the logarithms of the row values, broadcast: at (r, q), the logarithm of row r's value. -/
theorem hostLogColumn_apply (v : FVec Ideal ⟨1, ![a]⟩ .f32)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (q : Fin b) :
    broadcastInDim ⟨2, ![a, b]⟩ ![0, 1] h2
        (Host.log (F := Ideal) (φ := .f32) (broadcastInDim ⟨2, ![a, 1]⟩ ![0] h1 v)) (ix2 r q)
      = Ideal.log (v (ix1 r)) :=
  (hostColRow_apply (Host.log (F := Ideal) (φ := .f32) (broadcastInDim ⟨2, ![a, 1]⟩ ![0] h1 v)) h2 r q).trans
    (congrArg Ideal.log (hostCol_apply v h1 r))

/-- The vector unit's column of the logarithms of the row values, broadcast: at (p, q), the logarithm of row p's value. -/
theorem unitLogColumn_apply (v : FVec Ideal ⟨1, ![a]⟩ .f32)
    (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (log (F := Ideal) (φ := .f32) (shapeCast ⟨2, ![a, 1]⟩ v h1)) h2 (ix2 p q)
      = Ideal.log (v (ix1 p)) :=
  (Cert.Proof.Column.broadcastTo_a1_ab_apply (log (F := Ideal) (φ := .f32) (shapeCast ⟨2, ![a, 1]⟩ v h1)) h2 p q).trans
    (congrArg Ideal.log (Cert.Proof.Column.shapeCast_a_a1_apply v h1 p 0))

end Columns

/-! ## The block's body in two steps: the logits, then each row's log-softmax -/

/-- The logits of a block of rows: the two products on the matrix unit, added, plus the bias row. -/
def blockLogits (x0 x1 : FVec Ideal S5000x64 .f32) (x2 x3 : FVec Ideal S64x40 .f32) (x4 : FVec Ideal S1x40 .f32) :
    FVec Ideal S5000x40 .f32 :=
  addf
    (addf
      (matmul dot_S5000x64_S64x40_S5000x40_1_0_0_1_n_n none
        (truncf .bf16 (shapeCast S5000x64 x0 Gen.shapeCasts_S5000x64_S5000x64) Gen.bitsLt_bf16_f32)
        (truncf .bf16 x2 Gen.bitsLt_bf16_f32) (constant S5000x40 .f32 0x00000000#32))
      (matmul dot_S5000x64_S64x40_S5000x40_1_0_0_1_n_n none
        (truncf .bf16 (shapeCast S5000x64 x1 Gen.shapeCasts_S5000x64_S5000x64) Gen.bitsLt_bf16_f32)
        (truncf .bf16 x3 Gen.bitsLt_bf16_f32) (constant S5000x40 .f32 0x00000000#32)))
    (broadcastTo S5000x40 (shapeCast S1x40 x4 Gen.shapeCasts_S1x40_S1x40) Gen.broadcasts_S1x40_S5000x40)

/-- Each row's largest entry, from minus infinity. -/
def blockRowMax (L : FVec Ideal S5000x40 .f32) : FVec Ideal S5000 .f32 :=
  multiReduction .maximumf [1] S5000 L 0xFF800000#32 Gen.reduces_S5000x40_S5000 (.inl rfl) rfl

/-- A row minus its largest entry. -/
def blockShifted (L : FVec Ideal S5000x40 .f32) : FVec Ideal S5000x40 .f32 :=
  subf L (broadcastTo S5000x40 (shapeCast S5000x1 (blockRowMax L) Gen.shapeCasts_S5000_S5000x1)
    Gen.broadcasts_S5000x1_S5000x40)

/-- The log-softmax of each row of a block. -/
def blockLogSoftmax (L : FVec Ideal S5000x40 .f32) : FVec Ideal S5000x40 .f32 :=
  subf (blockShifted L)
    (broadcastTo S5000x40
      (log (shapeCast S5000x1
        (multiReduction .add [1] S5000 (exp (blockShifted L)) 0x00000000#32 Gen.reduces_S5000x40_S5000 (.inl rfl) rfl)
        Gen.shapeCasts_S5000_S5000x1))
      Gen.broadcasts_S5000x1_S5000x40)

/-- The body's value is the log-softmax of the block's logits. -/
theorem pay_eq (x0 x1 : FVec Ideal S5000x64 .f32) (x2 x3 : FVec Ideal S64x40 .f32) (x4 : FVec Ideal S1x40 .f32) :
    (k1_pay1 (F := Ideal)) x0 x1 x2 x3 x4 = blockLogSoftmax (blockLogits x0 x1 x2 x3 x4) := rfl

/-! ## A block row against the array row it is -/

section BlockRow

variable {n N K b : ℕ}

/-- Element (p, q) of a block [n, K] times a matrix [K, b] on the matrix unit, both narrowed on the way in and accumulated
    from zero, is element (r, q) of the host's product of the array [N, K] with the matrix, when block row p is array
    row r: both are the sum over k of the row's entry k times the matrix's entry (k, q). -/
theorem matmul_row (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc : (⟨2, ![n, K]⟩ : Shape).ShapeCasts ⟨2, ![n, K]⟩) (hlt : FTy.bf16.bits < FTy.f32.bits)
    (x : FVec Ideal ⟨2, ![n, K]⟩ .f32) (w : FVec Ideal ⟨2, ![K, b]⟩ .f32) (A : FVec Ideal ⟨2, ![N, K]⟩ .f32)
    (p : Fin n) (r : Fin N) (q : Fin b) (hrow : ∀ k : Fin K, x (ix2 p k) = A (ix2 r k)) :
    matmul dk none (truncf .bf16 (shapeCast ⟨2, ![n, K]⟩ x hc) hlt) (truncf .bf16 w hlt)
        (constant ⟨2, ![n, b]⟩ .f32 0x00000000#32) (ix2 p q)
      = Host.dotGeneral dr none A w (ix2 r q) := by
  rw [shapeCast_self]
  show FloatOps.matmul dk none _ _ _ _ = FloatOps.dotGeneral dr none .single A w (ix2 r q)
  rw [Cert.LibBlocks.matmul_plain_apply dk hdk, Cert.LibBlocks.dotGeneral_plain_apply dr hdr]
  refine Finset.sum_congr rfl fun k _ => ?_
  rw [truncf_apply, truncf_apply, hrow k]

/-- The bias row broadcast down a block's rows and down the array's rows: at (p, q) and at (r, q) both read the
    bias at (0, q). -/
theorem biasRow_apply (hc : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (x : FVec Ideal ⟨2, ![1, b]⟩ .f32) (p : Fin n) (r : Fin N) (q : Fin b) :
    broadcastTo ⟨2, ![n, b]⟩ (shapeCast ⟨2, ![1, b]⟩ x hc) hb (ix2 p q)
      = broadcastInDim ⟨2, ![N, b]⟩ ![0, 1] hbd x (ix2 r q) := by
  rw [shapeCast_self]
  refine (broadcastTo_apply x hb (ix2 p q) (ix2 (0 : Fin 1) q) fun ax => ?_).trans
    (broadcastInDim_apply ![0, 1] hbd x (ix2 r q) (ix2 (0 : Fin 1) q) fun ax => ?_).symm
  · match ax with
    | ⟨0, _⟩ => rfl
    | ⟨1, _⟩ =>
      show q.val = if b = 1 then 0 else q.val
      have := q.isLt
      split_ifs <;> omega
  · match ax with
    | ⟨0, _⟩ => rfl
    | ⟨1, _⟩ =>
      show q.val = if b = 1 then 0 else q.val
      have := q.isLt
      split_ifs <;> omega

end BlockRow

/-- THE LOGITS, ROW BY ROW: when block row p of each of the two feature blocks is array row r, and the weights and the
    bias are the arrays', the block's logits on row p are the array's logits on row r. -/
theorem blockLogits_apply (x0 x1 : FVec Ideal S5000x64 .f32) (x2 x3 : FVec Ideal S64x40 .f32) (x4 : FVec Ideal S1x40 .f32)
    (A X : FVec Ideal Cert.Sage.TNx64 .f32) (Wl Wr : FVec Ideal Cert.Sage.T64x40 .f32) (B : FVec Ideal Cert.Sage.T1x40 .f32)
    (p : Fin 5000) (r : Fin 100000)
    (h0 : ∀ k : Fin 64, x0 (ix2 p k) = A (ix2 r k)) (h1 : ∀ k : Fin 64, x1 (ix2 p k) = X (ix2 r k))
    (h2 : x2 = Wl) (h3 : x3 = Wr) (h4 : x4 = B) (q : Fin 40) :
    blockLogits x0 x1 x2 x3 x4 (ix2 p q) = Cert.Sage.logits A X Wl Wr B (ix2 r q) := by
  subst h2 h3 h4
  have e1 := matmul_row dot_S5000x64_S64x40_S5000x40_1_0_0_1_n_n rfl (DotDims.plain 100000 64 40) rfl
    Gen.shapeCasts_S5000x64_S5000x64 Gen.bitsLt_bf16_f32 x0 x2 A p r q h0
  have e2 := matmul_row dot_S5000x64_S64x40_S5000x40_1_0_0_1_n_n rfl (DotDims.plain 100000 64 40) rfl
    Gen.shapeCasts_S5000x64_S5000x64 Gen.bitsLt_bf16_f32 x1 x3 X p r q h1
  have e3 := biasRow_apply (n := 5000) (N := 100000) Gen.shapeCasts_S1x40_S1x40 Gen.broadcasts_S1x40_S5000x40
    Cert.Sage.bias40 x4 p r q
  exact congrArg₂ (· + ·) (congrArg₂ (· + ·) e1 e2) e3

/-! ## A row's log-softmax, on the block and on the array -/

/-- A block row's largest entry: the fold of max from minus infinity over the row. -/
theorem blockRowMax_apply (L : FVec Ideal S5000x40 .f32) (p : Fin 5000) :
    blockRowMax L (ix1 p)
      = (Finset.univ : Finset (Fin 40)).fold max (Ideal.ofBits .f32 0xFF800000#32) (fun k => L (ix2 p k)) :=
  rowMaxK_apply L _ _ _ _ p

/-- An array row's largest entry: the same fold; the outer max with minus infinity changes nothing. -/
theorem rowMax_apply (L : FVec Ideal Cert.Sage.TNx40 .f32) (r : Fin 100000) :
    Cert.Sage.rowMax L (ix1 r)
      = (Finset.univ : Finset (Fin 40)).fold max (Ideal.ofBits .f32 0xFF800000#32) (fun k => L (ix2 r k)) := by
  unfold Cert.Sage.rowMax
  rw [maximumf_apply, broadcastInDim_apply ![] Cert.Sage.splatN _ (ix1 r) ix0 (fun ax => ax.elim0), constant_apply,
    Cert.Sage.max_neg_inf]
  exact rowMaxH_apply L _ Cert.Sage.rows40 (by decide) Cert.Sage.one_elt r

/-- Rows equal entry by entry have equal largest entries. -/
theorem rowMax_eq (L : FVec Ideal S5000x40 .f32) (L' : FVec Ideal Cert.Sage.TNx40 .f32) (p : Fin 5000) (r : Fin 100000)
    (hrow : ∀ q : Fin 40, L (ix2 p q) = L' (ix2 r q)) : blockRowMax L (ix1 p) = Cert.Sage.rowMax L' (ix1 r) := by
  rw [blockRowMax_apply, rowMax_apply]
  exact congrArg (fun f => (Finset.univ : Finset (Fin 40)).fold max (Ideal.ofBits .f32 0xFF800000#32) f)
    (funext hrow)

/-- … and equal entries after the largest is taken off. -/
theorem shifted_eq (L : FVec Ideal S5000x40 .f32) (L' : FVec Ideal Cert.Sage.TNx40 .f32) (p : Fin 5000) (r : Fin 100000)
    (hrow : ∀ q : Fin 40, L (ix2 p q) = L' (ix2 r q)) (q : Fin 40) :
    blockShifted L (ix2 p q) = Cert.Sage.shifted L' (ix2 r q) := by
  have ek : blockShifted L (ix2 p q) = L (ix2 p q) - blockRowMax L (ix1 p) :=
    congrArg (L (ix2 p q) - ·)
      (unitColumn_apply (blockRowMax L) Gen.shapeCasts_S5000_S5000x1 Gen.broadcasts_S5000x1_S5000x40 p q)
  have eh : Cert.Sage.shifted L' (ix2 r q) = L' (ix2 r q) - Cert.Sage.rowMax L' (ix1 r) :=
    congrArg (L' (ix2 r q) - ·) (hostColumn_apply (Cert.Sage.rowMax L') Cert.Sage.colN Cert.Sage.col40 r q)
  rw [ek, eh, hrow q, rowMax_eq L L' p r hrow]

/-- THE LOG-SOFTMAX, ROW BY ROW: rows equal entry by entry have equal log-softmax: the same entries less the same
    largest entry, less the logarithm of the same sum of exponentials. -/
theorem logSoftmax_eq (L : FVec Ideal S5000x40 .f32) (L' : FVec Ideal Cert.Sage.TNx40 .f32) (p : Fin 5000) (r : Fin 100000)
    (hrow : ∀ q : Fin 40, L (ix2 p q) = L' (ix2 r q)) (q : Fin 40) :
    blockLogSoftmax L (ix2 p q) = Cert.Sage.logSoftmax L' (ix2 r q) := by
  have sk : multiReduction .add [1] S5000 (exp (blockShifted L)) 0x00000000#32 Gen.reduces_S5000x40_S5000 (.inl rfl) rfl (ix1 p)
      = ∑ k : Fin 40, Ideal.exp (blockShifted L (ix2 p k)) :=
    rowSumK_apply (exp (blockShifted L)) _ _ _ _ p
  have sh : Host.reduceAdd (F := Ideal) (Host.exp (Cert.Sage.shifted L')) (constant (F := Ideal) Cert.Sage.T_ .f32 0x00000000#32)
        Cert.Sage.rows40 Cert.Sage.one_elt (ix1 r)
      = ∑ k : Fin 40, Ideal.exp (Cert.Sage.shifted L' (ix2 r k)) :=
    rowSumH_apply (Host.exp (Cert.Sage.shifted L')) Cert.Sage.rows40 (by decide) Cert.Sage.one_elt r
  have ss : (∑ k : Fin 40, Ideal.exp (blockShifted L (ix2 p k))) = ∑ k : Fin 40, Ideal.exp (Cert.Sage.shifted L' (ix2 r k)) :=
    Finset.sum_congr rfl fun k _ => congrArg Ideal.exp (shifted_eq L L' p r hrow k)
  have ek : blockLogSoftmax L (ix2 p q)
      = blockShifted L (ix2 p q) - Ideal.log (∑ k : Fin 40, Ideal.exp (blockShifted L (ix2 p k))) :=
    (congrArg (blockShifted L (ix2 p q) - ·)
      (unitLogColumn_apply
        (multiReduction .add [1] S5000 (exp (blockShifted L)) 0x00000000#32 Gen.reduces_S5000x40_S5000 (.inl rfl) rfl)
        Gen.shapeCasts_S5000_S5000x1 Gen.broadcasts_S5000x1_S5000x40 p q)).trans
      (congrArg (fun s => blockShifted L (ix2 p q) - Ideal.log s) sk)
  have eh : Cert.Sage.logSoftmax L' (ix2 r q)
      = Cert.Sage.shifted L' (ix2 r q) - Ideal.log (∑ k : Fin 40, Ideal.exp (Cert.Sage.shifted L' (ix2 r k))) :=
    (congrArg (Cert.Sage.shifted L' (ix2 r q) - ·)
      (hostLogColumn_apply
        (Host.reduceAdd (F := Ideal) (Host.exp (Cert.Sage.shifted L')) (constant (F := Ideal) Cert.Sage.T_ .f32 0x00000000#32)
          Cert.Sage.rows40 Cert.Sage.one_elt)
        Cert.Sage.colN Cert.Sage.col40 r q)).trans
      (congrArg (fun s => Cert.Sage.shifted L' (ix2 r q) - Ideal.log s) sh)
  rw [ek, eh, ss, shifted_eq L L' p r hrow q]

/-- THE BODY'S VALUE AT AN ELEMENT: when block row p of each feature block is array row r, and the weights and the bias
    are the arrays', element (p, q) of what the body stores is element (r, q) of layer 2 of the arrays. -/
theorem pay_apply (x0 x1 : FVec Ideal S5000x64 .f32) (x2 x3 : FVec Ideal S64x40 .f32) (x4 : FVec Ideal S1x40 .f32)
    (A X : FVec Ideal Cert.Sage.TNx64 .f32) (Wl Wr : FVec Ideal Cert.Sage.T64x40 .f32) (B : FVec Ideal Cert.Sage.T1x40 .f32)
    (p : Fin 5000) (r : Fin 100000) (q : Fin 40)
    (h0 : ∀ k : Fin 64, x0 (ix2 p k) = A (ix2 r k)) (h1 : ∀ k : Fin 64, x1 (ix2 p k) = X (ix2 r k))
    (h2 : x2 = Wl) (h3 : x3 = Wr) (h4 : x4 = B) :
    (k1_pay1 (F := Ideal)) x0 x1 x2 x3 x4 (ix2 p q) = Cert.Sage.layer2 A X Wl Wr B (ix2 r q) := by
  rw [pay_eq]
  exact logSoftmax_eq _ _ p r (blockLogits_apply x0 x1 x2 x3 x4 A X Wl Wr B p r h0 h1 h2 h3 h4) q

variable (V : (c : Dev nD) → (b : Ref sig .tc) → Buf (Elt Ideal) ((c : Thread nD τ).loc b))

/-! ## From blocks to the array

The grid has 20 points; point t works rows 5000 t … 5000 t + 4999 of the two feature arrays and of the output, and the
whole of the two weight matrices and of the bias row. -/

/-- The printed index maps over the grid: the two feature windows and the output window are at block t on the rows and
    block 0 on the columns; the weights' and the bias's windows are at block 0 on both axes. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid's points are fewer than 20. -/
theorem point_lt (t : Fin cfg1.N) : t.val < 20 := lt_of_lt_of_eq t.isLt N_1

/-- Row p of the aggregated features' block at point t is row 5000 t + p of the array. -/
theorem read_row0 (c : Dev nD) (t : Fin cfg1.N) (p : Fin 5000) (k : Fin 64) (r : Fin 100000)
    (hr : r.val = t.val * 5000 + p.val) : iblk1 V c 0 t (ix2 p k) = V c main_v39 (ix2 r k) := by
  obtain ⟨e0, e1, -⟩ := idx_facts t
  show V c main_v39 (((cfg1.win 0).blk t).view.emb (ix2 p k)) = V c main_v39 (ix2 r k)
  refine congrArg (V c main_v39) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Row p of the hidden features' block at point t is row 5000 t + p of the array. -/
theorem read_row1 (c : Dev nD) (t : Fin cfg1.N) (p : Fin 5000) (k : Fin 64) (r : Fin 100000)
    (hr : r.val = t.val * 5000 + p.val) : iblk1 V c 1 t (ix2 p k) = V c main_v26 (ix2 r k) := by
  obtain ⟨-, -, e0, e1, -⟩ := idx_facts t
  show V c main_v26 (((cfg1.win 1).blk t).view.emb (ix2 p k)) = V c main_v26 (ix2 r k)
  refine congrArg (V c main_v26) (funext fun a => Fin.ext ?_)
  match a with
  | ⟨0, _⟩ => show win1_1.index t (0 : Fin 2) * 5000 + 1 * p.val = r.val; omega
  | ⟨1, _⟩ => show win1_1.index t (1 : Fin 2) * 64 + 1 * k.val = k.val; omega

/-- The first weight matrix's block at every point is the whole matrix. -/
theorem read_w2 (c : Dev nD) (t : Fin cfg1.N) : (iblk1 V c 2 t : FVec Ideal S64x40 .f32) = V c main_arg5 := by
  obtain ⟨-, -, -, -, e0, e1, -⟩ := idx_facts t
  funext y
  show V c main_arg5 (((cfg1.win 2).blk t).view.emb y) = V c main_arg5 y
  refine congrArg (V c main_arg5) (funext fun a => Fin.ext ?_)
  match a with
  | ⟨0, _⟩ => show win1_2.index t (0 : Fin 2) * 64 + 1 * (y 0).val = (y 0).val; omega
  | ⟨1, _⟩ => show win1_2.index t (1 : Fin 2) * 40 + 1 * (y 1).val = (y 1).val; omega

/-- The second weight matrix's block at every point is the whole matrix. -/
theorem read_w3 (c : Dev nD) (t : Fin cfg1.N) : (iblk1 V c 3 t : FVec Ideal S64x40 .f32) = V c main_arg6 := by
  obtain ⟨-, -, -, -, -, -, e0, e1, -⟩ := idx_facts t
  funext y
  show V c main_arg6 (((cfg1.win 3).blk t).view.emb y) = V c main_arg6 y
  refine congrArg (V c main_arg6) (funext fun a => Fin.ext ?_)
  match a with
  | ⟨0, _⟩ => show win1_3.index t (0 : Fin 2) * 64 + 1 * (y 0).val = (y 0).val; omega
  | ⟨1, _⟩ => show win1_3.index t (1 : Fin 2) * 40 + 1 * (y 1).val = (y 1).val; omega

/-- The bias row's block at every point is the whole row. -/
theorem read_b4 (c : Dev nD) (t : Fin cfg1.N) : (iblk1 V c 4 t : FVec Ideal S1x40 .f32) = V c main_v40 := by
  obtain ⟨-, -, -, -, -, -, -, -, e0, e1, -⟩ := idx_facts t
  funext y
  show V c main_v40 (((cfg1.win 4).blk t).view.emb y) = V c main_v40 y
  refine congrArg (V c main_v40) (funext fun a => Fin.ext ?_)
  match a with
  | ⟨0, _⟩ => show win1_4.index t (0 : Fin 2) * 1 + 1 * (y 0).val = (y 0).val; omega
  | ⟨1, _⟩ => show win1_4.index t (1 : Fin 2) * 40 + 1 * (y 1).val = (y 1).val; omega

/-- Element (p, q) of the output's block at point t sits at (5000 t + p, q) in the array. -/
theorem emb_out (t : Fin cfg1.N) (p : Fin 5000) (q : Fin 40) (r : Fin 100000) (hr : r.val = t.val * 5000 + p.val) :
    ((cfg1.win 5).blk t).view.emb (ix2 p q) = ix2 r q := by
  obtain ⟨-, -, -, -, -, -, -, -, -, -, e0, e1⟩ := idx_facts t
  refine funext fun a => Fin.ext ?_
  match a with
  | ⟨0, _⟩ => show win1_5.index t (0 : Fin 2) * 5000 + 1 * p.val = r.val; omega
  | ⟨1, _⟩ => show win1_5.index t (1 : Fin 2) * 40 + 1 * q.val = q.val; omega

/-- WHAT POINT t WRITES BACK is block t of layer 2 of the arrays the region finds. -/
theorem flushed_eq (c : Dev nD) (t : Fin cfg1.N) :
    (dat1 (F := Ideal) V c).flushed 5 t
      = ((cfg1.win 5).blk t).view.read (Elt Ideal)
          (Cert.Sage.layer2 (V c main_v39) (V c main_v26) (V c main_arg5) (V c main_arg6) (V c main_v40)) := by
  show (cfg1.win 5).cut (grid1.coords t) ((dat1 V c).after 5 t) = _
  rw [after1_5]
  unfold out1_5
  rw [View.canon_unit_zero Cert.LibBlocks.off2_zero]
  simp only [View.ld_unit_zero (S := S5000x64) Cert.LibBlocks.off2_zero,
    View.ld_unit_zero (S := S64x40) Cert.LibBlocks.off2_zero, View.ld_unit_zero (S := S1x40) Cert.LibBlocks.off2_zero]
  funext j
  obtain ⟨p, q, rfl⟩ : ∃ (p : Fin 5000) (q : Fin 40), j = ix2 p q := ⟨j 0, j 1, eq_ix2 j⟩
  have ht := point_lt t
  have hp := p.isLt
  have hemb := emb_out t p q ⟨t.val * 5000 + p.val, by omega⟩ rfl
  show (k1_pay1 (F := Ideal)) (iblk1 V c 0 t) (iblk1 V c 1 t) (iblk1 V c 2 t) (iblk1 V c 3 t) (iblk1 V c 4 t) (ix2 p q)
    = Cert.Sage.layer2 (V c main_v39) (V c main_v26) (V c main_arg5) (V c main_arg6) (V c main_v40)
        (((cfg1.win 5).blk t).view.emb (ix2 p q))
  exact (pay_apply (iblk1 V c 0 t) (iblk1 V c 1 t) (iblk1 V c 2 t) (iblk1 V c 3 t) (iblk1 V c 4 t)
      (V c main_v39) (V c main_v26) (V c main_arg5) (V c main_arg6) (V c main_v40) p ⟨t.val * 5000 + p.val, by omega⟩ q
      (fun k => read_row0 V c t p k _ rfl) (fun k => read_row1 V c t p k _ rfl)
      (read_w2 V c t) (read_w3 V c t) (read_b4 V c t)).trans
    (congrArg (Cert.Sage.layer2 (V c main_v39) (V c main_v26) (V c main_arg5) (V c main_arg6) (V c main_v40)) hemb.symm)

/-- An index of the output array is in point t's block iff each coordinate is in the block's range on its axis. -/
theorem mem_blk (t : Fin cfg1.N) (i : S100000x40.Idx) :
    i ∈ ((cfg1.win 5).blk t).view.set
      ↔ ∀ a : Fin 2, win1_5.index t a * S5000x40.size a ≤ (i a).val
          ∧ (i a).val < win1_5.index t a * S5000x40.size a + S5000x40.size a := by
  show i ∈ ((View.whole main_v41).slice (win1_5.rect t)).set ↔ _
  rw [View.set_slice_whole, Rect.mem_set_unit]
  exact Iff.rfl

/-- Every index of the output array is in some point's block: row r is in the block of point r / 5000, and every point
    writes its block back. -/
theorem cover (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  obtain ⟨hb, hlo, hhi⟩ := Cert.LibBlocks.row_in_block (nb := 20) (bs := 5000) (r := (i 0).val) (by omega) (by omega)
  obtain ⟨t, htv⟩ : ∃ t : Fin cfg1.N, t.val = (i 0).val / 5000 := ⟨⟨(i 0).val / 5000, lt_of_lt_of_eq hb N_1.symm⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 40 ≤ (i 1).val ∧ (i 1).val < win1_5.index t (1 : Fin 2) * 40 + 40
    omega

/-- Region 1's output array after the run is layer 2 of the arrays the region finds. -/
theorem value (c : Dev nD) :
    (dat1 (F := Ideal) V c).arrAt 5 cfg1.N
      = Cert.Sage.layer2 (V c main_v39) (V c main_v26) (V c main_arg5) (V c main_arg6) (V c main_v40) :=
  (dat1 (F := Ideal) V c).arrAt_eq_of_cover 5 _ (fun t _ => flushed_eq V c t) cover

end Cert.KernelIdeal.Region1

end
-- ==== Proof.Stretch.lean ====
/-
  What the host operations around the two kernel calls leave in the arrays the calls read, as functions of the
  contents W they start from: the first stretch makes the mean of the gathered input features (the row sums times the
  column 1 / max (degree, 1)), the bias row of layer 1, the edges' sources and destinations and the column of
  reciprocals; the second stretch makes the same mean of the gathered hidden features and the bias row of layer 2. Every
  other array is left as it was.
-/
import proofs.«177842_j63239098466920_1_alg».proof.Proof.Gen.KernelIdeal.Frame
import proofs.«177842_j63239098466920_1_alg».proof.Proof.Graph
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (W : Valuation τ sig (Elt Ideal))

/-! ## The first stretch -/

theorem first_src : after (hostOps0 (F := Ideal)) W (Proc.devRef .tc main_v1) = Cert.Sage.src (W (Proc.devRef .tc main_arg1)) := by
  after_results_simp
  rfl

theorem first_dst : after (hostOps0 (F := Ideal)) W (Proc.devRef .tc main_v3) = Cert.Sage.dst (W (Proc.devRef .tc main_arg1)) := by
  after_results_simp
  rfl

theorem first_bias : after (hostOps0 (F := Ideal)) W (Proc.devRef .tc main_v25)
    = shapeCast Cert.Sage.T1x64 (W (Proc.devRef .tc main_arg4)) Cert.Sage.row64 := by
  after_results_simp
  rfl

theorem first_recip : after (hostOps0 (F := Ideal)) W (Proc.devRef .tc main_v11)
    = Host.divf (broadcastInDim Cert.Sage.TN ![] Cert.Sage.splatN (constant (F := Ideal) Cert.Sage.T_ .f32 0x3F800000#32))
        (Cert.Sage.degClamped (W (Proc.devRef .tc main_arg1))) := by
  after_results_simp
  rfl

theorem first_mean : after (hostOps0 (F := Ideal)) W (Proc.devRef .tc main_v24)
    = Cert.Sage.meanMul Cert.Sage.col128 (Cert.Sage.deg (W (Proc.devRef .tc main_arg1)))
        (Cert.Sage.rowSum128 (W (Proc.devRef .tc main_arg1)) (W (Proc.devRef .tc main_arg0))) := by
  after_results_simp
  rfl

theorem first_arg0 : after (hostOps0 (F := Ideal)) W (Proc.devRef .tc main_arg0) = W (Proc.devRef .tc main_arg0) := by
  after_results_simp
theorem first_arg2 : after (hostOps0 (F := Ideal)) W (Proc.devRef .tc main_arg2) = W (Proc.devRef .tc main_arg2) := by
  after_results_simp
theorem first_arg3 : after (hostOps0 (F := Ideal)) W (Proc.devRef .tc main_arg3) = W (Proc.devRef .tc main_arg3) := by
  after_results_simp
theorem first_arg5 : after (hostOps0 (F := Ideal)) W (Proc.devRef .tc main_arg5) = W (Proc.devRef .tc main_arg5) := by
  after_results_simp
theorem first_arg6 : after (hostOps0 (F := Ideal)) W (Proc.devRef .tc main_arg6) = W (Proc.devRef .tc main_arg6) := by
  after_results_simp
theorem first_arg7 : after (hostOps0 (F := Ideal)) W (Proc.devRef .tc main_arg7) = W (Proc.devRef .tc main_arg7) := by
  after_results_simp

/-! ## The second stretch -/

theorem second_mean : after (hostOps1 (F := Ideal)) W (Proc.devRef .tc main_v39)
    = mulf (Host.scatterAdd Cert.Sage.sc64
          (broadcastInDim Cert.Sage.TNx64 ![] Cert.Sage.splat64 (constant (F := Ideal) Cert.Sage.T_ .f32 0x00000000#32))
          (broadcastInDim Cert.Sage.TEx1 ![0] Cert.Sage.colE (W (Proc.devRef .tc main_v3)))
          (Host.gather Cert.Sage.g64 (W (Proc.devRef .tc main_v26))
            (broadcastInDim Cert.Sage.TEx1 ![0] Cert.Sage.colE
              (select (cmpi .slt (W (Proc.devRef .tc main_v1)) (broadcastInDim Cert.Sage.TE ![] Cert.Sage.splatE (constantI Cert.Sage.T_ 32 0#32)))
                (addi (W (Proc.devRef .tc main_v1)) (broadcastInDim Cert.Sage.TE ![] Cert.Sage.splatE (constantI Cert.Sage.T_ 32 100000#32)))
                (W (Proc.devRef .tc main_v1))))))
        (broadcastInDim Cert.Sage.TNx64 ![0, 1] Cert.Sage.col64 (broadcastInDim Cert.Sage.TNx1 ![0] Cert.Sage.colN (W (Proc.devRef .tc main_v11)))) := by
  after_results_simp
  rfl

theorem second_bias : after (hostOps1 (F := Ideal)) W (Proc.devRef .tc main_v40)
    = shapeCast Cert.Sage.T1x40 (W (Proc.devRef .tc main_arg7)) Cert.Sage.row40 := by
  after_results_simp
  rfl

theorem second_hidden : after (hostOps1 (F := Ideal)) W (Proc.devRef .tc main_v26) = W (Proc.devRef .tc main_v26) := by
  after_results_simp
theorem second_arg5 : after (hostOps1 (F := Ideal)) W (Proc.devRef .tc main_arg5) = W (Proc.devRef .tc main_arg5) := by
  after_results_simp
theorem second_arg6 : after (hostOps1 (F := Ideal)) W (Proc.devRef .tc main_arg6) = W (Proc.devRef .tc main_arg6) := by
  after_results_simp

end Cert.KernelIdeal.Stretch

end
-- ==== Proof.KernelValue.lean ====
/-
  The kernel program's result array as the network's function of the launch arrays.

  The second kernel call writes layer 2 of (the mean of the gathered hidden features, the hidden features); the hidden
  features are what the first call wrote: layer 1 of (the mean of the gathered input features, the input features). The
  host operations before each call make the means, with the mean spelt as the row sums times 1 / max (degree, 1), and
  the bias rows by reshaping the bias vectors; the arrays a call only reads, and the ones the host stretch does not
  write, are still the launch arrays.
-/
import proofs.«177842_j63239098466920_1_alg».proof.Proof.Gen.KernelIdeal.Frame
import proofs.«177842_j63239098466920_1_alg».proof.Proof.Graph
import proofs.«177842_j63239098466920_1_alg».proof.Proof.Stretch

set_option maxRecDepth 16384

noncomputable section

namespace Cert.KernelIdeal.NetValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first call's output array after its run is layer 1 of the arrays the call finds, whatever they hold. -/
abbrev Region0Value : Prop :=
  ∀ (V : (c : Dev nD) → (b : Ref sig .tc) → Buf (Elt Ideal) ((c : Thread nD τ).loc b)) (c : Dev nD),
    (dat0 (F := Ideal) V c).arrAt 5 cfg0.N
      = Cert.Sage.layer1 (V c main_v24) (V c main_arg0) (V c main_arg2) (V c main_arg3) (V c main_v25)

/-- The second call's output array after its run is layer 2 of the arrays the call finds. -/
abbrev Region1Value : Prop :=
  ∀ (V : (c : Dev nD) → (b : Ref sig .tc) → Buf (Elt Ideal) ((c : Thread nD τ).loc b)) (c : Dev nD),
    (dat1 (F := Ideal) V c).arrAt 5 cfg1.N
      = Cert.Sage.layer2 (V c main_v39) (V c main_v26) (V c main_arg5) (V c main_arg6) (V c main_v40)

/-- The hidden features: what the first call leaves in its output array. -/
theorem hidden_eq (h0 : Region0Value) (c : Dev nD) :
    W2 m ρ c (Proc.devRef .tc main_v26)
      = Cert.Sage.layer1
          (Cert.Sage.meanMul Cert.Sage.col128 (Cert.Sage.deg (m ((c.tc : Thread nD τ).loc main_arg1)))
            (Cert.Sage.rowSum128 (m ((c.tc : Thread nD τ).loc main_arg1)) (m ((c.tc : Thread nD τ).loc main_arg0))))
          (m ((c.tc : Thread nD τ).loc main_arg0)) (m ((c.tc : Thread nD τ).loc main_arg2)) (m ((c.tc : Thread nD τ).loc main_arg3))
          (shapeCast Cert.Sage.T1x64 (m ((c.tc : Thread nD τ).loc main_arg4)) Cert.Sage.row64) := by
  refine (W2_arr m ρ c 5).trans ?_
  rw [h0 (V1 m ρ) c]
  dsimp only [V1, W1]
  rw [Stretch.first_mean, Stretch.first_arg0, Stretch.first_arg2, Stretch.first_arg3, Stretch.first_bias]

/-- The result array after the run is the network's function of the launch arrays. -/
theorem result_eq (h0 : Region0Value) (h1 : Region1Value) (c : Dev nD) :
    W4 m ρ c (Proc.devRef .tc main_v41)
      = Cert.Sage.kernelNet (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W4_arr m ρ c 5).trans ?_
  rw [h1 (V3 m ρ) c]
  dsimp only [V3, W3]
  rw [Stretch.second_mean, Stretch.second_hidden, Stretch.second_arg5, Stretch.second_arg6, Stretch.second_bias]
  rw [hidden_eq m ρ h0 c,
    W2_of_ne m ρ c main_v3 (by decide), W2_of_ne m ρ c main_v1 (by decide), W2_of_ne m ρ c main_v11 (by decide),
    W2_of_ne m ρ c main_arg5 (by decide), W2_of_ne m ρ c main_arg6 (by decide), W2_of_ne m ρ c main_arg7 (by decide)]
  dsimp only [W1]
  rw [Stretch.first_dst, Stretch.first_src, Stretch.first_recip, Stretch.first_arg5, Stretch.first_arg6, Stretch.first_arg7]
  rfl

end Cert.KernelIdeal.NetValue

end
-- ==== Proof.RefValue.lean ====
/-
  The reference program's result as the network's function of the launch arrays.

  Its host operations, read one after the other, compose to: hidden = layer 1 of (the mean of the gathered input features
  spelt as a quotient, the input features), result = layer 2 of (the same mean of the gathered hidden features, the hidden
  features), the bias vectors broadcast to rows. Two of its functions are called through references that carry the
  equation "this buffer's type is T"; a value passed through such a reference and back is unchanged, and at the four
  buffers where a plain operation meets a called one the passage is the identity because the buffer's type is T by
  computation. Every argument array is left as it was.
-/
import proofs.«177842_j63239098466920_1_alg».proof.Proof.RefRun
import proofs.«177842_j63239098466920_1_alg».proof.Proof.Graph

set_option maxRecDepth 16384

noncomputable section

namespace Cert.ReferenceIdeal.NetValue

open Cert.ReferenceIdeal Cert.ReferenceIdeal.ValueP
open Idealize.ShloMosaic Idealize.ShloMosaic.TcCoe Idealize.SL.Sem Idealize.ShloMosaic.StableHlo

/-! ## Values through typed references -/

/-- Into a typed reference's buffer and back out: the same value. -/
theorem ofBuf_toBuf {T : BufTy} (x : TRef sig T) (w : T.Contents (Elt Ideal)) : x.ofBuf (x.toBuf w) = w := by
  unfold TRef.ofBuf TRef.toBuf
  simp

/-- The pre-activation array, read by the rectifier's function: its buffer's type is [100000, 64] of f32. -/
theorem preact_in (p : main_v28.ty = (⟨S100000x64, .f32⟩ : BufTy)) (hd) (hu)
    (u : (⟨S100000x64, .f32⟩ : BufTy).Contents (Elt Ideal)) :
    (TRef.of (sig := sig) main_v28 p hd hu).ofBuf u = u := rfl

/-- The hidden array, written by the rectifier's function. -/
theorem hidden_out (p : main_v29.ty = (⟨S100000x64, .f32⟩ : BufTy)) (hd) (hu)
    (v : (⟨S100000x64, .f32⟩ : BufTy).Contents (Elt Ideal)) :
    (TRef.of (sig := sig) main_v29 p hd hu).toBuf v = v := rfl

/-- The logits, read by the log-softmax's function: [100000, 40] of f32. -/
theorem logits_in (p : main_v54.ty = (⟨S100000x40, .f32⟩ : BufTy)) (hd) (hu)
    (u : (⟨S100000x40, .f32⟩ : BufTy).Contents (Elt Ideal)) :
    (TRef.of (sig := sig) main_v54 p hd hu).ofBuf u = u := rfl

/-- The result, written by the log-softmax's function. -/
theorem result_out (p : main_v55.ty = (⟨S100000x40, .f32⟩ : BufTy)) (hd) (hu)
    (v : (⟨S100000x40, .f32⟩ : BufTy).Contents (Elt Ideal)) :
    (TRef.of (sig := sig) main_v55 p hd hu).toBuf v = v := rfl

variable (W : Valuation τ sig (Elt Ideal))

/-! ## The result -/

/-- The operations, from contents W, leave the network's value in the result array. -/
theorem result_eq : after (ops (F := Ideal)) W (Proc.devRef .tc main_v55)
    = Cert.Sage.refNet (W (Proc.devRef .tc main_arg1)) (W (Proc.devRef .tc main_arg0)) (W (Proc.devRef .tc main_arg2))
        (W (Proc.devRef .tc main_arg3)) (W (Proc.devRef .tc main_arg4)) (W (Proc.devRef .tc main_arg5))
        (W (Proc.devRef .tc main_arg6)) (W (Proc.devRef .tc main_arg7)) := by
  after_results_simp
  simp only [ofBuf_toBuf, preact_in, hidden_out, logits_in, result_out]
  rfl

/-! ## The arguments are not written -/

theorem kept_arg0 : after (ops (F := Ideal)) W (Proc.devRef .tc main_arg0) = W (Proc.devRef .tc main_arg0) := by
  after_results_simp
theorem kept_arg1 : after (ops (F := Ideal)) W (Proc.devRef .tc main_arg1) = W (Proc.devRef .tc main_arg1) := by
  after_results_simp
theorem kept_arg2 : after (ops (F := Ideal)) W (Proc.devRef .tc main_arg2) = W (Proc.devRef .tc main_arg2) := by
  after_results_simp
theorem kept_arg3 : after (ops (F := Ideal)) W (Proc.devRef .tc main_arg3) = W (Proc.devRef .tc main_arg3) := by
  after_results_simp
theorem kept_arg4 : after (ops (F := Ideal)) W (Proc.devRef .tc main_arg4) = W (Proc.devRef .tc main_arg4) := by
  after_results_simp
theorem kept_arg5 : after (ops (F := Ideal)) W (Proc.devRef .tc main_arg5) = W (Proc.devRef .tc main_arg5) := by
  after_results_simp
theorem kept_arg6 : after (ops (F := Ideal)) W (Proc.devRef .tc main_arg6) = W (Proc.devRef .tc main_arg6) := by
  after_results_simp
theorem kept_arg7 : after (ops (F := Ideal)) W (Proc.devRef .tc main_arg7) = W (Proc.devRef .tc main_arg7) := by
  after_results_simp

end Cert.ReferenceIdeal.NetValue

end
-- ==== Proof.lean ====
/-
  A two-layer mean-aggregating graph convolution over 100000 nodes and 1600000 edges, ending in a row-wise log-softmax:
  the kernel program (two kernel calls over row blocks of 5000, among host gathers and accumulating scatters) and the
  reference program (host operations only) compute the same array over the extended reals.

  Both gather each edge's source row and add it up at the edge's destination, and both count the edges ending at a node.
  The kernel program multiplies the row sums by 1 / max (degree, 1); the reference divides them by max (degree, 1): the
  same, since max (degree, 1) is at least 1 and x (1 / y) = x / y off zero, at the infinities too. Layer 1,
  max (A Wl + X Wr + bias, 0), and layer 2, the log-softmax of A Wl + H Wr + bias, are computed by the kernel calls one
  block of 5000 rows at a time: a row of the result depends on that row of A and X (or H) only, so block t of the result
  is rows 5000 t … 5000 t + 4999 of the whole-array function, and the 20 blocks cover the array. A change of float
  format is the identity here, the matrix unit's product from a zero accumulator is the host's product, the vector unit's
  row maximum from minus infinity is the host's, and the reference's extra maximum with minus infinity changes nothing.

  The claim never uses that the inputs are finite.
-/
import proofs.«177842_j63239098466920_1_alg».proof.Defs
import proofs.«177842_j63239098466920_1_alg».proof.Proof.Gen.Kernel
import proofs.«177842_j63239098466920_1_alg».proof.Proof.Gen.Kernel.Skeleton
import proofs.«177842_j63239098466920_1_alg».proof.Proof.Gen.Kernel.Launch
import proofs.«177842_j63239098466920_1_alg».proof.Proof.Gen.Kernel.Points
import proofs.«177842_j63239098466920_1_alg».proof.Proof.Gen.Kernel.Frame
import proofs.«177842_j63239098466920_1_alg».proof.Proof.Gen.KernelIdeal
import proofs.«177842_j63239098466920_1_alg».proof.Proof.Gen.KernelIdeal.Skeleton
import proofs.«177842_j63239098466920_1_alg».proof.Proof.Gen.KernelIdeal.Launch
import proofs.«177842_j63239098466920_1_alg».proof.Proof.Gen.KernelIdeal.Points
import proofs.«177842_j63239098466920_1_alg».proof.Proof.Gen.KernelIdeal.Frame
import proofs.«177842_j63239098466920_1_alg».proof.Proof.Gen.ReferenceIdeal
import proofs.«177842_j63239098466920_1_alg».proof.Proof.Gen.Pre_finite_inputs
import proofs.«177842_j63239098466920_1_alg».proof.Proof.Graph
import proofs.«177842_j63239098466920_1_alg».proof.Proof.Region0
import proofs.«177842_j63239098466920_1_alg».proof.Proof.Region1
import proofs.«177842_j63239098466920_1_alg».proof.Proof.KernelRun
import proofs.«177842_j63239098466920_1_alg».proof.Proof.KernelValue
import proofs.«177842_j63239098466920_1_alg».proof.Proof.RefRun
import proofs.«177842_j63239098466920_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program, at the word level: it runs and leaves its arguments as launched. -/
theorem frame_kernel : Cert.frame_Kernel := fun m ρ _ => Cert.Kernel.Gen.frame m ρ

/-- The same program read over the extended reals. -/
theorem frame_kernelIdeal : Cert.frame_KernelIdeal := fun m ρ _ => Cert.KernelIdeal.Gen.frame m ρ

/-- The reference: its operations write none of the arguments. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.NetValue.kept_arg0 _),
     (h c Cert.ReferenceIdeal.main_arg1).trans (Cert.ReferenceIdeal.NetValue.kept_arg1 _),
     (h c Cert.ReferenceIdeal.main_arg2).trans (Cert.ReferenceIdeal.NetValue.kept_arg2 _),
     (h c Cert.ReferenceIdeal.main_arg3).trans (Cert.ReferenceIdeal.NetValue.kept_arg3 _),
     (h c Cert.ReferenceIdeal.main_arg4).trans (Cert.ReferenceIdeal.NetValue.kept_arg4 _),
     (h c Cert.ReferenceIdeal.main_arg5).trans (Cert.ReferenceIdeal.NetValue.kept_arg5 _),
     (h c Cert.ReferenceIdeal.main_arg6).trans (Cert.ReferenceIdeal.NetValue.kept_arg6 _),
     (h c Cert.ReferenceIdeal.main_arg7).trans (Cert.ReferenceIdeal.NetValue.kept_arg7 _)⟩)
    (Cert.ReferenceIdeal.ValueP.run (F := Ideal) m ρ)

/-- No operation of the kernel program was rewritten on the way to the extended reals. -/
theorem preserves : Cert.preserves_Kernel_KernelIdeal := trivial

/-- Both programs end with the network's value of the launch arrays in their result array: the kernel program's is
    the network with the mean as a product, the reference's the network with the mean as a quotient, and the two are one
    function. -/
theorem algebraic : Cert.algebraic_KernelIdeal_ReferenceIdeal := by
  intro m ρ m' ρ' _ hagree
  refine ⟨fun c => Cert.Sage.kernelNet
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c =>
      ⟨(h c).1.trans (Cert.KernelIdeal.NetValue.result_eq m ρ Cert.KernelIdeal.Region0.value Cert.KernelIdeal.Region1.value c),
        (h c).2⟩) (Cert.KernelIdeal.GenRun.run_named (F := Ideal) m ρ)
  · refine (θ_run Cert.ReferenceIdeal.defs _ _).mono (fun r h c => ?_) (Cert.ReferenceIdeal.ValueP.run (F := Ideal) m' ρ')
    obtain ⟨a0, a1, a2, a3, a4, a5, a6, a7⟩ := hagree c
    refine ⟨?_,
      (h c Cert.ReferenceIdeal.main_arg0).trans (Cert.ReferenceIdeal.NetValue.kept_arg0 _),
      (h c Cert.ReferenceIdeal.main_arg1).trans (Cert.ReferenceIdeal.NetValue.kept_arg1 _),
      (h c Cert.ReferenceIdeal.main_arg2).trans (Cert.ReferenceIdeal.NetValue.kept_arg2 _),
      (h c Cert.ReferenceIdeal.main_arg3).trans (Cert.ReferenceIdeal.NetValue.kept_arg3 _),
      (h c Cert.ReferenceIdeal.main_arg4).trans (Cert.ReferenceIdeal.NetValue.kept_arg4 _),
      (h c Cert.ReferenceIdeal.main_arg5).trans (Cert.ReferenceIdeal.NetValue.kept_arg5 _),
      (h c Cert.ReferenceIdeal.main_arg6).trans (Cert.ReferenceIdeal.NetValue.kept_arg6 _),
      (h c Cert.ReferenceIdeal.main_arg7).trans (Cert.ReferenceIdeal.NetValue.kept_arg7 _)⟩
    refine (h c Cert.ReferenceIdeal.main_v55).trans ?_
    refine (Cert.ReferenceIdeal.NetValue.result_eq _).trans ?_
    show Cert.Sage.refNet
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) = _
    rw [a0, a1, a2, a3, a4, a5, a6, a7]
    exact (Cert.Sage.kernelNet_eq_refNet _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
